-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S256 : Shape := ⟨1, ![256]⟩
abbrev S43234x512 : Shape := ⟨2, ![43234, 512]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S256 : S_.BroadcastsInDim S256 (![] : Fin 0 → Fin S256.rank)
  reducesTo_S256_S_d0 : S256.ReducesTo [0] S_
  bcast_S_S43234x512 : S_.BroadcastsInDim S43234x512 (![] : Fin 0 → Fin S43234x512.rank)
  reducesTo_S43234x512_S_d0_1 : S43234x512.ReducesTo [0, 1] S_

variable [Facts]

def fn_part1 {F : FTy → Type} [FloatOps F] (main_v13 : IVec S_ 1) (main_v16 : IVec S43234x512 1) : IVec S_ 1 :=
  let main_c_5 : IVec S_ 1 := constantI S_ 1 1#1
  let main_v17 : IVec S_ 1 := (fun x v => Host.reduce IntOp.andi x v reducesTo_S43234x512_S_d0_1 h_S_) main_v16 main_c_5
  let main_v18 : IVec S_ 1 := andi main_v13 main_v17
  main_v18

def fn {F : FTy → Type} [FloatOps F] (main_arg0 : FVec F S256x768 .f32) (main_arg1 : IVec S256 32) (main_arg2 : FVec F S256x768 .f32) (main_arg3 : FVec F S256 .f32) (main_arg4 : FVec F S43234x512 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S43234x512 .f32 := Host.absf main_arg4
  let main_cst_4 : FVec F S_ .f32 := constant S_ .f32 0x7F800000#32
  let main_v15 : FVec F S43234x512 .f32 := broadcastInDim S43234x512 ![] bcast_S_S43234x512 main_cst_4
  let main_v16 : IVec S43234x512 1 := cmpf .olt main_v14 main_v15
  fn_part1 (F := F) main_v13 main_v16
-- ==== Kernel.lean ====
abbrev S256x768 : Shape := ⟨2, ![256, 768]⟩
abbrev S256 : Shape := ⟨1, ![256]⟩
abbrev S43234x512 : Shape := ⟨2, ![43234, 512]⟩
abbrev S_ : Shape := ⟨0, ![]⟩
abbrev S768x256 : Shape := ⟨2, ![768, 256]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S256x43234 : Shape := ⟨2, ![256, 43234]⟩
abbrev S2048x512 : Shape := ⟨2, ![2048, 512]⟩
abbrev S256x2048 : Shape := ⟨2, ![256, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 45
  | .vmem => 5
  | .smem => 0
  | _ => 0

abbrev bufTy : (tb : Table) → Fin (tcTables nBuf tb) → BufTy
  | .hbm, ⟨0, _⟩ => ⟨S256x768, .f32⟩
  | .hbm, ⟨1, _⟩ => ⟨S256, .i32⟩
  | .hbm, ⟨2, _⟩ => ⟨S256x768, .f32⟩
  | .hbm, ⟨3, _⟩ => ⟨S256, .f32⟩
  | .hbm, ⟨4, _⟩ => ⟨S43234x512, .f32⟩
  | .hbm, ⟨5, _⟩ => ⟨S_, .f32⟩
  | .hbm, ⟨6, _⟩ => ⟨S256x768, .f32⟩
  | .hbm, ⟨7, _⟩ => ⟨S256x768, .f32⟩
  | .hbm, ⟨8, _⟩ => ⟨S768x256, .f32⟩
  | .hbm, ⟨9, _⟩ => ⟨S256x256, .f32⟩
  | .hbm, ⟨10, _⟩ => ⟨S1x256, .f32⟩
  | .hbm, ⟨11, _⟩ => ⟨S256x256, .f32⟩
  | .hbm, ⟨12, _⟩ => ⟨S256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x512, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S256x43234, .f32⟩
  | .local _ .vmem, ⟨0, _⟩ => ⟨S2048x512, .f32⟩
  | .local _ .vmem, ⟨1, _⟩ => ⟨S2048x512, .f32⟩
  | .local _ .vmem, ⟨2, _⟩ => ⟨S256x1, .f32⟩
  | .local _ .vmem, ⟨3, _⟩ => ⟨S256x2048, .f32⟩
  | .local _ .vmem, ⟨4, _⟩ => ⟨S256x2048, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x768 : S_.BroadcastsInDim S256x768 (![] : Fin 0 → Fin S256x768.rank)
  transposes_S256x768_S768x256_1_0 : S256x768.Transposes [1, 0] S768x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256 : S_.BroadcastsInDim S256 (![] : Fin 0 → Fin S256.rank)
  bcast_S256_S256x1_0 : S256.BroadcastsInDim S256x1 (![0] : Fin 1 → Fin S256x1.rank)
  slices_S256x512_S256x256_0_0 : S256x512.Slices ![0, 0] S256x256
  slices_S256x512_S256x256_0_256 : S256x512.Slices ![0, 256] S256x256
  bcast_S_S256x256 : S_.BroadcastsInDim S256x256 (![] : Fin 0 → Fin S256x256.rank)
  reducesTo_S256x256_S256_d1 : S256x256.ReducesTo [1] S256
  h_S_ : 0 < S_.numel
  shapeCasts_S256_S256x1 : S256.ShapeCasts S256x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  transposes_S2048x1_p1_0_S1x2048 : S2048x1.Transposes [1, 0] S1x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x768_S768x256_S256x256_1_0_0_1_n_n_wf : DotDims.WF S256x768 S768x256 S256x256 [1] [0] [0] [1] [] []
  gather_S43234x512_S256x1_S256x512_1_0_n_n_0_1_1512_wf : GatherDims.WF S43234x512 S256x1 S256x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S43234x512.size a
  hwx0_0 : ∀ i : grid0.Coords, EltTy.bits .f32 = 32 ∨ (Rect.unit (s := S43234x512) (fun a => cc0_transform_0 i a * S2048x512.size a) (fun a => (Pipeline.Clip.of (cc0_transform_0 i a) (S2048x512.size a) (S43234x512.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S43234x512.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x2048.size a < S256x43234.size a
  hwx0_2 : ∀ i : grid0.Coords, EltTy.bits .f32 = 32 ∨ (Rect.unit (s := S256x43234) (fun a => cc0_transform_2 i a * S256x2048.size a) (fun a => (Pipeline.Clip.of (cc0_transform_2 i a) (S256x2048.size a) (S256x43234.size a)).extent (S256x2048.size a)) fun a => Pipeline.Clip.inb (Pipeline.Clip.ok_of (hstart0_2 i a))).WholeWords (EltTy.packing .f32)
  hwxs0_2 : ∀ i : grid0.Coords, EltTy.bits .f32 = 32 ∨ (Rect.unit (s := S256x2048) (fun _ => 0) (fun a => (Pipeline.Clip.of (cc0_transform_2 i a) (S256x2048.size a) (S256x43234.size a)).extent (S256x2048.size a)) fun a => (Nat.zero_add _).trans_le (Pipeline.Clip.extent_le (Pipeline.Clip.ok_of (hstart0_2 i a)))).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def gather_S43234x512_S256x1_S256x512_1_0_n_n_0_1_1512 : GatherDims S43234x512 S256x1 S256x512 where
  offsetDims := [1]
  collapsedSliceDims := [0]
  operandBatchingDims := []
  startIndicesBatchingDims := []
  startIndexMap := [0]
  indexVectorDim := 1
  sliceSizes := ![1, 512]
  wf := gather_S43234x512_S256x1_S256x512_1_0_n_n_0_1_1512_wf

abbrev win0_0 : Pipeline.Window sig grid0 :=
  Pipeline.Window.ofSpecClip (Memref.whole main_arg4) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v31) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v32) S256x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x768 : Shape := ⟨2, ![256, 768]⟩
abbrev S256 : Shape := ⟨1, ![256]⟩
abbrev S43234x512 : Shape := ⟨2, ![43234, 512]⟩
abbrev S_ : Shape := ⟨0, ![]⟩
abbrev S768x256 : Shape := ⟨2, ![768, 256]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S43234x256 : Shape := ⟨2, ![43234, 256]⟩
abbrev S43234 : Shape := ⟨1, ![43234]⟩
abbrev S1x43234 : Shape := ⟨2, ![1, 43234]⟩
abbrev S256x43234 : Shape := ⟨2, ![256, 43234]⟩

abbrev nBuf : Space → Nat
  | .hbm => 56
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256, .i32⟩
  | .hbm, ⟨2, _⟩ => ⟨S256x768, .f32⟩
  | .hbm, ⟨3, _⟩ => ⟨S256, .f32⟩
  | .hbm, ⟨4, _⟩ => ⟨S43234x512, .f32⟩
  | .hbm, ⟨5, _⟩ => ⟨S_, .f32⟩
  | .hbm, ⟨6, _⟩ => ⟨S256x768, .f32⟩
  | .hbm, ⟨7, _⟩ => ⟨S256x768, .f32⟩
  | .hbm, ⟨8, _⟩ => ⟨S768x256, .f32⟩
  | .hbm, ⟨9, _⟩ => ⟨S256x256, .f32⟩
  | .hbm, ⟨10, _⟩ => ⟨S1x256, .f32⟩
  | .hbm, ⟨11, _⟩ => ⟨S256x256, .f32⟩
  | .hbm, ⟨12, _⟩ => ⟨S256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x512, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256, .f32⟩
  | .hbm, ⟨43, _⟩ => ⟨S43234x256, .f32⟩
  | .hbm, ⟨44, _⟩ => ⟨S43234x256, .f32⟩
  | .hbm, ⟨45, _⟩ => ⟨S43234x256, .f32⟩
  | .hbm, ⟨46, _⟩ => ⟨S_, .f32⟩
  | .hbm, ⟨47, _⟩ => ⟨S43234, .f32⟩
  | .hbm, ⟨48, _⟩ => ⟨S256x1, .f32⟩
  | .hbm, ⟨49, _⟩ => ⟨S1x43234, .f32⟩
  | .hbm, ⟨50, _⟩ => ⟨S256x43234, .f32⟩
  | .hbm, ⟨51, _⟩ => ⟨S256x43234, .f32⟩
  | .hbm, ⟨52, _⟩ => ⟨S256x43234, .f32⟩
  | .hbm, ⟨53, _⟩ => ⟨S_, .f32⟩
  | .hbm, ⟨54, _⟩ => ⟨S256x43234, .f32⟩
  | .hbm, ⟨55, _⟩ => ⟨S256x43234, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S256x768 : S_.BroadcastsInDim S256x768 (![] : Fin 0 → Fin S256x768.rank)
  transposes_S256x768_S768x256_1_0 : S256x768.Transposes [1, 0] S768x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256 : S_.BroadcastsInDim S256 (![] : Fin 0 → Fin S256.rank)
  bcast_S256_S256x1_0 : S256.BroadcastsInDim S256x1 (![0] : Fin 1 → Fin S256x1.rank)
  slices_S256x512_S256x256_0_0 : S256x512.Slices ![0, 0] S256x256
  slices_S256x512_S256x256_0_256 : S256x512.Slices ![0, 256] S256x256
  bcast_S_S256x256 : S_.BroadcastsInDim S256x256 (![] : Fin 0 → Fin S256x256.rank)
  reducesTo_S256x256_S256_d1 : S256x256.ReducesTo [1] S256
  h_S_ : 0 < S_.numel
  slices_S43234x512_S43234x256_0_0 : S43234x512.Slices ![0, 0] S43234x256
  slices_S43234x512_S43234x256_0_256 : S43234x512.Slices ![0, 256] S43234x256
  reducesTo_S43234x256_S43234_d1 : S43234x256.ReducesTo [1] S43234
  bcast_S43234_S1x43234_1 : S43234.BroadcastsInDim S1x43234 (![1] : Fin 1 → Fin S1x43234.rank)
  bcast_S256x1_S256x43234_0_1 : S256x1.BroadcastsInDim S256x43234 (![0, 1] : Fin 2 → Fin S256x43234.rank)
  bcast_S1x43234_S256x43234_0_1 : S1x43234.BroadcastsInDim S256x43234 (![0, 1] : Fin 2 → Fin S256x43234.rank)
  bcast_S_S256x43234 : S_.BroadcastsInDim S256x43234 (![] : Fin 0 → Fin S256x43234.rank)
  dot_S256x768_S768x256_S256x256_1_0_0_1_n_n_wf : DotDims.WF S256x768 S768x256 S256x256 [1] [0] [0] [1] [] []
  gather_S43234x512_S256x1_S256x512_1_0_n_n_0_1_1512_wf : GatherDims.WF S43234x512 S256x1 S256x512 [1] [0] [] [0] [] 1 ![1, 512]

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def gather_S43234x512_S256x1_S256x512_1_0_n_n_0_1_1512 : GatherDims S43234x512 S256x1 S256x512 where
  offsetDims := [1]
  collapsedSliceDims := [0]
  operandBatchingDims := []
  startIndicesBatchingDims := []
  startIndexMap := [0]
  indexVectorDim := 1
  sliceSizes := ![1, 512]
  wf := gather_S43234x512_S256x1_S256x512_1_0_n_n_0_1_1512_wf

class Facts : Prop extends Facts₀ where

variable [Facts]
-- ==== Proof.BodyBits.lean ====
/-
  One run of the score kernel's body, on any three whole staging buffers.

  The body loads the whole entity tile (2048 rows of 512 entries) and the whole column of head sums (256 by 1),
  computes from the two a 256 by 2048 tile — for every head and every row of the entity tile, one over the head's
  sum less the row's sum (the pure term `k0_pay1`) —, loads the output buffer without using what it read, and
  stores the tile over the whole output buffer. So, whatever the three buffers held, the two inputs end as they
  were and the output buffer holds `k0_pay1` of the two inputs' contents: every access is the whole buffer at
  offset zero, a load of it reads the contents and the one store of it leaves its payload. Nothing here depends
  on the float instance.
-/
import proofs.«172840_j28140625723971_1_alg».proof.Proof.Gen.Kernel.Frame
import proofs.«172840_j28140625723971_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body: zero on both axes. -/
theorem offsets_zero : (![0, 0] : Fin 2 → Nat) = fun _ => 0 := funext fun a => by fin_cases a <;> rfl

set_option maxHeartbeats 1000000 in
/-- The body on whole staging buffers holding `x0` (the entity tile), `x1` (the head sums) and anything (the output's):
    it runs to the continuation with the inputs' buffers as they were and the output's holding `k0_pay1 x0 x1`. -/
theorem sound_kernel (c : Dev nD) (E : Set ℕ) (i : grid0.Coords)
    (arg1 : Memref sig .tc .vmem S2048x512 .f32) (harg1 : arg1.IsWhole)
    (arg2 : Memref sig .tc .vmem S256x1 .f32) (harg2 : arg2.IsWhole)
    (arg3 : Memref sig .tc .vmem S256x2048 .f32) (harg3 : arg3.IsWhole)
    (x0 : Vec F S2048x512 .f32) (x1 : Vec F S256x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the output buffer, so the buffer reads as the store's payload; each load read its buffer whole
  rw [View.read_writes_eq_canon _ _ _ (fun y => ⟨_, List.mem_singleton_self _,
      View.mem_set_unit_zero offsets_zero inb_S256x2048_S256x2048_0_0 y⟩),
    View.canon_unit_zero offsets_zero inb_S256x2048_S256x2048_0_0]
  simp only [View.readAt_eq_ld, View.ld_unit_zero (S := S2048x512) offsets_zero inb_S2048x512_S2048x512_0_0,
    View.ld_unit_zero (S := S256x1) offsets_zero inb_S256x1_S256x1_0_0]

end Cert.Kernel.Body

end
-- ==== Proof.FrameBits.lean ====
/-
  The word-level program runs to the end and leaves its five arguments as they were.

  At the word level the sum along the lanes is a function of the WHOLE entity tile of which nothing more is known,
  and at the last grid point the tile's rows past the table's end hold words nothing names; so what the body
  stores there cannot be named, and need not be: this claim says nothing of the result. The proof data therefore
  forgets all three windows. At every point the body is handed its three staging buffers at whatever they hold
  and hands them back at whatever they then hold; that it runs at all, faulting nowhere, is the body's run on any
  three whole buffers. The pipeline's frame run then leaves every array no window stages as the region found it,
  and an input window's array — the entity table — at its entry contents; no host operation before the region
  writes an argument, so each argument ends at its launch contents.
-/
import proofs.«172840_j28140625723971_1_alg».proof.Proof.BodyBits
import Idealize.ShloMosaic.Lib.Pipeline.Frame
import Idealize.ShloMosaic.PureOps.BitExact

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The proof data: the arrays as the region finds them; what the body leaves in a staging buffer is not named
    (every window is forgotten, so nothing reads it); the invariant the scoped rest and the generator register;
    nothing owed; full shares. -/
def dats (_ : Fin 1) (c : Dev nD) : Dat τ (Elt Bits) Unit ℕ (UR sig nD τ) ℕ cfg0 c where
  A w := V m c (Pipeline.arrRef spec0 w)
  after w t := Dat.unnamed w t
  Φ _ := Pipeline.ΦA spec0 c
  q _ := fullShare
  owed _ := 0

/-- Every window is forgotten. -/
abbrev forgetAll : Fin cfg0.W → Bool := fun _ => true

/-- The body at any point, on the three current staging buffers at any contents: it runs, and hands the three
    buffers back at some contents; the invariant and what the core owes pass through unread. -/
theorem sound_body (c : Dev nD) (t : Fin cfg0.N) :
    iprop((dats m 0 c).Φ t.castSucc ∗ (dats m 0 c).owesAt () t.castSucc
        ∗ (∃ X, owns (c : Thread nD τ) (st0_0 t) fullShare X)
        ∗ (∃ X, owns (c : Thread nD τ) (st0_1 t) fullShare X)
        ∗ (∃ X, owns (c : Thread nD τ) (st0_2 t) fullShare X))
      ⊢ wp frame (wpE (defs₀ (F := Bits)) Variants.none c none) Set.univ (bodyAt0 t) (fun _ =>
          iprop((dats m 0 c).Φ t.succ ∗ (dats m 0 c).owesAt () t.succ
            ∗ (∃ X, owns (c : Thread nD τ) (st0_0 t) fullShare X)
            ∗ (∃ X, owns (c : Thread nD τ) (st0_1 t) fullShare X)
            ∗ (∃ X, owns (c : Thread nD τ) (st0_2 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (Cert.Kernel.Body.sound_kernel (F := Bits) c Set.univ (grid0.coords t) _ _ _ _ _ _ X0 X1 _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]; · iexists X0; iexact H0
  isplitl [H1]; · iexists X1; iexact H1
  iexists _; iexact H2

/-- The body obligation with every window forgotten. -/
theorem body_obligation (c : Dev nD) :
    BodyObligationLoose (dats m 0 c) (defs₀ (F := Bits)) Variants.none () Set.univ forgetAll := fun t => by
  simp only [bigSep_W0]
  exact sound_body m c t

set_option backward.isDefEq.respectTransparency.types false in
/-- Every weakly fair execution of @main terminates; every array of the pipeline then stands in the forgetting
    data's relation to its entry contents, and every other unscoped buffer is as the region found it. -/
theorem run_main : θ_run defs (onTc (τ := τ) (main (F := Bits))) (s₀ m ρ)
    (Pipeline.RDat.FramePost cfg0 (fun c => (dats m 0 c).toRForget forgetAll) (V m)) :=
  Pipeline.RDat.θ_run_frame cfgs (0 : Fin 1) launch0 defs₀ Variants.none (fun c => (dats m 0 c).toRForget forgetAll) m ρ main
    (hbody := fun c => (body_obligation m c).toRForget)
    (hshare := fun c w => (dats m 0 c).share_full (fun _ => rfl) w)
    (howed := fun _ _ => rfl) (V := V m) (hmain := hmain m Variants.none) (hA := fun _ _ => rfl) (hΦ := fun _ _ => rfl)

/-- The frame: the five arguments end at their launch contents — four bypass the region, the entity table is an
    input window's array. -/
theorem frame : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c (0 : Fin 3) rfl).trans (V_main_arg4 m c)⟩) (run_main m ρ)

end Cert.Kernel.FrameRun

end
-- ==== Proof.BodyIdeal.lean ====
/-
  One run of the score kernel's body, on any three whole staging buffers.

  The body loads the whole entity tile (2048 rows of 512 entries) and the whole column of head sums (256 by 1),
  computes from the two a 256 by 2048 tile — for every head and every row of the entity tile, one over the head's
  sum less the row's sum (the pure term `k0_pay1`) —, loads the output buffer without using what it read, and
  stores the tile over the whole output buffer. So, whatever the three buffers held, the two inputs end as they
  were and the output buffer holds `k0_pay1` of the two inputs' contents: every access is the whole buffer at
  offset zero, a load of it reads the contents and the one store of it leaves its payload. Nothing here depends
  on the float instance.
-/
import proofs.«172840_j28140625723971_1_alg».proof.Proof.Gen.KernelIdeal.Frame
import proofs.«172840_j28140625723971_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body: zero on both axes. -/
theorem offsets_zero : (![0, 0] : Fin 2 → Nat) = fun _ => 0 := funext fun a => by fin_cases a <;> rfl

set_option maxHeartbeats 1000000 in
/-- The body on whole staging buffers holding `x0` (the entity tile), `x1` (the head sums) and anything (the output's):
    it runs to the continuation with the inputs' buffers as they were and the output's holding `k0_pay1 x0 x1`. -/
theorem sound_kernel (c : Dev nD) (E : Set ℕ) (i : grid0.Coords)
    (arg1 : Memref sig .tc .vmem S2048x512 .f32) (harg1 : arg1.IsWhole)
    (arg2 : Memref sig .tc .vmem S256x1 .f32) (harg2 : arg2.IsWhole)
    (arg3 : Memref sig .tc .vmem S256x2048 .f32) (harg3 : arg3.IsWhole)
    (x0 : Vec F S2048x512 .f32) (x1 : Vec F S256x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the output buffer, so the buffer reads as the store's payload; each load read its buffer whole
  rw [View.read_writes_eq_canon _ _ _ (fun y => ⟨_, List.mem_singleton_self _,
      View.mem_set_unit_zero offsets_zero inb_S256x2048_S256x2048_0_0 y⟩),
    View.canon_unit_zero offsets_zero inb_S256x2048_S256x2048_0_0]
  simp only [View.readAt_eq_ld, View.ld_unit_zero (S := S2048x512) offsets_zero inb_S2048x512_S2048x512_0_0,
    View.ld_unit_zero (S := S256x1) offsets_zero inb_S256x1_S256x1_0_0]

end Cert.KernelIdeal.Body

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's tile, entry by entry, on the extended reals.

  From an entity tile `v0` (2048 rows of 512 entries) and a column `v4` of 256 head sums the body computes the
  tile whose entry at head `b` and row `j` is one over head sum `b` less the sum of row `j`:
  the rows are summed along their 512 lanes, the 2048 sums are stood up as a column, laid down as a row and
  spread over the 256 heads; the head sums are spread along the 2048 rows; the two are subtracted and the word of
  `1.0` divided by the difference. Reading each of those steps at the entry `(b, j)`: the spread of the head
  column reads the column at `b`; the spread of the row of sums reads it at `j`, the lying row is the standing
  column at `j`, the standing column is the vector of sums at `j`, and that sum is the sum over the 512 lanes of
  row `j`. So entry `(b, j)` depends on the entity tile through row `j` alone.
-/
import proofs.«172840_j28140625723971_1_alg».proof.Proof.Gen.KernelIdeal.Skeleton
import proofs.«172840_j28140625723971_1_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The sum along the lanes, at row `j`: the sum over the 512 lanes of the tile's row `j`. -/
theorem lane_sum (v0 : FVec Ideal S2048x512 .f32) (hφ : FKind.Formats .f32)
    (hacc : (0x00000000#32 : BitVec 32) = 0x00000000#32) (j : Fin 2048) :
    multiReduction (F := Ideal) .add [1] S2048 v0 0x00000000#32 reduces_S2048x512_S2048 hφ hacc (ix1 j)
      = ∑ k : Fin 512, v0 (ix2 j k) := by
  refine (Ideal.multiReduction_add_single v0 0x00000000#32 reduces_S2048x512_S2048 hφ hacc (ix1 j)).trans ?_
  refine Finset.sum_congr rfl fun k _ => congrArg v0 (funext fun a => Fin.ext ?_)
  match a with
  | ⟨0, _⟩ => rfl
  | ⟨1, _⟩ => rfl

/-- The head sums spread along the rows read, at `(b, j)`, head sum `b`. -/
theorem head_term (v4 : FVec Ideal S256x1 .f32) (b : Fin 256) (j : Fin 2048) :
    broadcastTo S256x2048 (shapeCast S256x1 v4 shapeCasts_S256x1_S256x1) broadcasts_S256x1_S256x2048 (ix2 b j)
      = v4 (ix2 b (0 : Fin 1)) :=
  (Cert.LibColumn.broadcastTo_a1_ab_apply _ broadcasts_S256x1_S256x2048 b j).trans
    (congrFun (shapeCast_self v4 shapeCasts_S256x1_S256x1) _)

/-- The rows' sums — summed along the lanes, stood up, laid down, spread over the heads — read, at `(b, j)`, the
    sum of row `j`. -/
theorem row_term (v0 : FVec Ideal S2048x512 .f32) (b : Fin 256) (j : Fin 2048) :
    broadcastTo S256x2048
        (transpose S1x2048 [1, 0]
          (shapeCast S2048x1
            (multiReduction (F := Ideal) .add [1] S2048 v0 0x00000000#32 reduces_S2048x512_S2048 (.inl rfl) rfl)
            shapeCasts_S2048_S2048x1)
          transposes_S2048x1_p1_0_S1x2048)
        broadcasts_S1x2048_S256x2048 (ix2 b j)
      = ∑ k : Fin 512, v0 (ix2 j k) :=
  (broadcastTo_1b_ab_apply _ broadcasts_S1x2048_S256x2048 b j).trans
    ((transpose_ix2_apply _ transposes_S2048x1_p1_0_S1x2048 (0 : Fin 1) j).trans
      ((Cert.LibColumn.shapeCast_a_a1_apply _ shapeCasts_S2048_S2048x1 j (0 : Fin 1)).trans
        (lane_sum v0 (.inl rfl) rfl j)))

/-- The tile at head `b` and row `j`: the word of `1.0` over head sum `b` less the sum of row `j`. -/
theorem pay_apply (v0 : Vec Ideal S2048x512 .f32) (v4 : Vec Ideal S256x1 .f32) (b : Fin 256) (j : Fin 2048) :
    k0_pay1 (F := Ideal) v0 v4 (ix2 b j)
      = Ideal.div (Ideal.ofBits .f32 0x3F800000#32) (v4 (ix2 b (0 : Fin 1)) - ∑ k : Fin 512, v0 (ix2 j k)) := by
  unfold k0_pay1
  exact congrArg₂ (fun p q => Ideal.div (Ideal.ofBits .f32 0x3F800000#32) (p - q)) (head_term v4 b j) (row_term v0 b j)

end Cert.KernelIdeal.Payload

end
-- ==== Proof.Blocks.lean ====
/-
  Where each window's block sits in its array, at every one of the 22 grid points.

  The entity table has 43234 rows and the grid walks it in tiles of 2048 rows: point `t` takes rows `2048 t` and
  on, all 512 columns. The head sums are one block, the whole 256 by 1 column, at every point. The result has
  43234 columns and point `t` writes columns `2048 t` and on, all 256 rows. 43234 is 21 · 2048 + 226, so the last
  point's tile overhangs both arrays: only its first 226 rows (of the table) and 226 columns (of the result) are
  moved; at every point the number of table rows moved equals the number of result columns moved, and the last
  moved column is column `min 43234 (2048 (t + 1)) - 1`.

  From those facts: an entry of the head block is the column's entry; an entry `(r, k)` of the table's moved
  block at point `t` is the table's entry `(2048 t + r, k)`; and entry `(b, j)` of the result's moved block at
  point `t` lands at `(b, 2048 t + j)` of the result.
-/
import proofs.«172840_j28140625723971_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The three index maps and the cut sizes, decided at each of the 22 points. -/
theorem idx_facts : ∀ t : Fin cfg0.N,
    win0_0.index t 0 = t.val ∧ win0_0.index t 1 = 0
    ∧ win0_1.index t 0 = 0 ∧ win0_1.index t 1 = 0
    ∧ win0_2.index t 0 = 0 ∧ win0_2.index t 1 = t.val
    ∧ win0_0.xsize (grid0.coords t) 0 = win0_2.xsize (grid0.coords t) 1
    ∧ win0_0.xsize (grid0.coords t) 1 = 512
    ∧ win0_2.xsize (grid0.coords t) 0 = 256
    ∧ t.val * 2048 + win0_2.xsize (grid0.coords t) 1 = min 43234 ((t.val + 1) * 2048) :=
  (by decide +kernel : ∀ t : Fin grid0.N,
    win0_0.index t 0 = t.val ∧ win0_0.index t 1 = 0
    ∧ win0_1.index t 0 = 0 ∧ win0_1.index t 1 = 0
    ∧ win0_2.index t 0 = 0 ∧ win0_2.index t 1 = t.val
    ∧ win0_0.xsize (grid0.coords t) 0 = win0_2.xsize (grid0.coords t) 1
    ∧ win0_0.xsize (grid0.coords t) 1 = 512
    ∧ win0_2.xsize (grid0.coords t) 0 = 256
    ∧ t.val * 2048 + win0_2.xsize (grid0.coords t) 1 = min 43234 ((t.val + 1) * 2048))

/-- The head sums' block, at every point, is the whole column: its entry `(b, 0)` is the column's. -/
theorem head_block (c : Dev nD) (t : Fin cfg0.N) (b : Fin 256) :
    (iblk m c 1 t : Vec F S256x1 .f32) (ix2 b (0 : Fin 1)) = (V m c main_v31 : Vec F S256x1 .f32) (ix2 b (0 : Fin 1)) := by
  obtain ⟨-, -, h10, h11, -⟩ := idx_facts t
  unfold iblk
  rw [View.read_apply]
  show V m c main_v31 _ = V m c main_v31 _
  congr 1
  funext a
  apply Fin.ext
  match a with
  | ⟨0, _⟩ => show win0_1.index t 0 * 256 + 1 * b.val = b.val; rw [h10]; omega
  | ⟨1, _⟩ => show win0_1.index t 1 * 1 + 1 * 0 = 0; rw [h11]

/-- The table's moved block at point `t`: its entry `z` is the table's entry in row `2048 t + z 0`, column `z 1`. -/
theorem ent_block (c : Dev nD) (t : Fin cfg0.N) (z : (win0_0.xblock (grid0.coords t)).Idx) (e : Fin 43234) (k : Fin 512)
    (he : e.val = t.val * 2048 + (z 0).val) (hk : k.val = (z 1).val) :
    iblk m c 0 t z = (V m c main_arg4 : Vec F S43234x512 .f32) (ix2 e k) := by
  obtain ⟨h00, h01, -⟩ := idx_facts t
  unfold iblk
  rw [View.read_apply]
  show V m c main_arg4 _ = V m c main_arg4 _
  congr 1
  funext a
  apply Fin.ext
  match a with
  | ⟨0, _⟩ => show win0_0.index t 0 * 2048 + 1 * (z 0).val = e.val; rw [h00, he]; omega
  | ⟨1, _⟩ => show win0_0.index t 1 * 512 + 1 * (z 1).val = k.val; rw [h01, hk]; omega

/-- The result's moved block at point `t`: its entry `y` lands in row `y 0`, column `2048 t + y 1`. -/
theorem out_emb (t : Fin cfg0.N) (y : (win0_2.xblock (grid0.coords t)).Idx) (b : Fin 256) (e : Fin 43234)
    (hb : b.val = (y 0).val) (he : e.val = t.val * 2048 + (y 1).val) :
    (win0_2.blk t).view.emb y = ix2 b e := by
  obtain ⟨-, -, -, -, h20, h21, -⟩ := idx_facts t
  funext a
  apply Fin.ext
  match a with
  | ⟨0, _⟩ => show win0_2.index t 0 * 256 + 1 * (y 0).val = b.val; rw [h20, hb]; omega
  | ⟨1, _⟩ => show win0_2.index t 1 * 2048 + 1 * (y 1).val = e.val; rw [h21, he]; omega

end Cert.KernelIdeal.Blocks

end
-- ==== Proof.Score.lean ====
/-
  The mathematics of the score, stated once over literal shapes and the extended reals.

  An entity table `x` has 43234 rows of 512 entries; row `e`'s sum is `rowSum x e`, the sum of all 512
  entries. For a vector `hs` of 256 head sums the score at `(b, e)` is `1 / (hs b - rowSum x e)`, the
  division the extended reals' total one.

  The only law needed: a row's sum over its 512 entries is the sum over `d < 256` of entry `d` plus entry
  `256 + d` — the 512 entries split into their two halves and the halves added termwise. Addition on the
  extended reals is commutative and associative, so this regrouping holds for every value, infinite ones
  included; no finiteness is used.
-/
import Idealize.ShloMosaic.PureOps.Ideal
import Idealize.ShloMosaic.Lib.ValueIdx
import Mathlib.Algebra.BigOperators.Fin

noncomputable section

namespace Cert.Score

open Idealize.ShloMosaic Idealize.ShloMosaic.ValueIdx

/-- A sum over 512 terms is the sum over `d < 256` of term `d` plus term `256 + d`, in any commutative
    monoid. -/
theorem sum_halves {M : Type*} [AddCommMonoid M] (f : Fin 512 → M) :
    ∑ k : Fin 512, f k
      = ∑ d : Fin 256, (f ⟨d.val, Nat.lt_of_lt_of_le d.isLt (by decide)⟩ + f ⟨256 + d.val, by have := d.isLt; omega⟩) := by
  rw [Finset.sum_add_distrib]
  exact Fin.sum_univ_add (a := 256) (b := 256) f

/-- Row `e`'s sum: all 512 entries of the row. -/
def rowSum (x : (⟨2, ![43234, 512]⟩ : Shape).Idx → EReal) (e : Fin 43234) : EReal :=
  ∑ k : Fin 512, x (ix2 e k)

/-- The row's sum by halves: entry `d` of the first half plus entry `d` of the second, summed over `d`. -/
theorem rowSum_halves (x : (⟨2, ![43234, 512]⟩ : Shape).Idx → EReal) (e : Fin 43234) :
    rowSum x e
      = ∑ d : Fin 256, (x (ix2 e ⟨d.val, Nat.lt_of_lt_of_le d.isLt (by decide)⟩)
          + x (ix2 e ⟨256 + d.val, by have := d.isLt; omega⟩)) :=
  sum_halves fun k => x (ix2 e k)

/-- The score: at `(b, e)`, one over head sum `b` less row `e`'s sum. The numerator is the word of `1.0`,
    kept as the word: both programs carry the same one. -/
def score (hs : (⟨1, ![256]⟩ : Shape).Idx → EReal) (x : (⟨2, ![43234, 512]⟩ : Shape).Idx → EReal) :
    (⟨2, ![256, 43234]⟩ : Shape).Idx → EReal :=
  fun i => Ideal.div (Ideal.ofBits .f32 0x3F800000#32) (hs (ix1 (i 0)) - rowSum x (i 1))

/-- The score at `(b, e)`, by coordinates. -/
theorem score_apply (hs : (⟨1, ![256]⟩ : Shape).Idx → EReal) (x : (⟨2, ![43234, 512]⟩ : Shape).Idx → EReal)
    (b : Fin 256) (e : Fin 43234) :
    score hs x (ix2 b e) = Ideal.div (Ideal.ofBits .f32 0x3F800000#32) (hs (ix1 b) - rowSum x e) := rfl

/-- The score at `(b, e)` with the row's sum taken by halves. -/
theorem score_apply_halves (hs : (⟨1, ![256]⟩ : Shape).Idx → EReal) (x : (⟨2, ![43234, 512]⟩ : Shape).Idx → EReal)
    (b : Fin 256) (e : Fin 43234) :
    score hs x (ix2 b e)
      = Ideal.div (Ideal.ofBits .f32 0x3F800000#32)
          (hs (ix1 b) - ∑ d : Fin 256, (x (ix2 e ⟨d.val, Nat.lt_of_lt_of_le d.isLt (by decide)⟩)
            + x (ix2 e ⟨256 + d.val, by have := d.isLt; omega⟩))) := by
  rw [score_apply, rowSum_halves]

end Cert.Score

end
-- ==== Proof.RunIdeal.lean ====
/-
  The idealized kernel's run, and what its result array holds at the end.

  The region finds the entity table `ent` (43234 by 512) and the column of head sums (256 by 1) where the host
  operations before it left them. Write `hs b` for head sum `b` and `result` for the 256 by 43234 array whose entry
  `(b, e)` is one over `hs b` less the sum of row `e` of `ent` (the score of `hs` and `ent`).

  At point `t` the pipeline fetches rows `2048 t …` of `ent`, cut at the table's end: the staging buffer holds those
  rows on its moved part and words nothing names past it. The body's tile at `(b, j)` is one over `hs b` less the
  sum of the buffer's row `j`; for `j` on the moved part that row is row `2048 t + j` of `ent`, so the tile there is
  `result` at `(b, 2048 t + j)` — the entry the write-back, cut at the same place, lands it on. What the tile holds
  past the moved part is never written back. So the proof data names, for the result's window, `result` read through
  the point's block; the 22 blocks cover all 43234 columns (column `e` is in the block of point `e / 2048`), and the
  result array ends holding `result`. The arguments end as they were.
-/
import proofs.«172840_j28140625723971_1_alg».proof.Proof.BodyIdeal
import proofs.«172840_j28140625723971_1_alg».proof.Proof.Payload
import proofs.«172840_j28140625723971_1_alg».proof.Proof.Blocks
import proofs.«172840_j28140625723971_1_alg».proof.Proof.Score
import Idealize.ShloMosaic.Lib.Pipeline.Frame
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays the region finds, and the result -/

/-- The entity table as the region finds it. -/
abbrev entArr (c : Dev nD) : Vec Ideal S43234x512 .f32 := V m c main_arg4
/-- The column of head sums as the region finds it. -/
abbrev headCol (c : Dev nD) : Vec Ideal S256x1 .f32 := V m c main_v31

/-- The head sums as a vector of 256: entry `b` of the column. -/
def headVec (c : Dev nD) : (⟨1, ![256]⟩ : Shape).Idx → EReal :=
  fun j => headCol m c (ix2 (⟨(j 0).val, (j 0).isLt⟩ : Fin 256) (0 : Fin 1))

theorem headVec_apply (c : Dev nD) (b : Fin 256) : headVec m c (ix1 b) = headCol m c (ix2 b (0 : Fin 1)) := rfl

/-- The result: the score of the head sums and the entity table. -/
def result (c : Dev nD) : Buf (Elt Ideal) ((c : Thread nD τ).loc main_v32) :=
  Cert.Score.score (headVec m c) (entArr m c)

/-! ## The proof data -/

/-- The value the data names past a moved part, where nothing reads it: zero. -/
abbrev zeroWord : Elt Ideal .f32 := Scalar.ofBits (F := Ideal) .f32 0#32

/-- After the body at point `t`: the table's buffer holds the table's block on its moved part, the head sums' buffer
    the column, the result's buffer `result` read through the point's block on its moved part; past a moved part the
    data names zero, which nothing reads. The invariant is the scoped rest and the generator register; nothing is
    owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (α := Elt Ideal .f32) (grid0.coords t) (fun _ => zeroWord) (iblk m c 0 t)
    | ⟨1, _⟩ => iblk m c 1 t
    | ⟨2, _⟩ => win0_2.fill (α := Elt Ideal .f32) (grid0.coords t) (fun _ => zeroWord) ((win0_2.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (α := Elt Ideal .f32) (grid0.coords t) (fun _ => zeroWord) (iblk m c 0 t) := by
  dsimp only [dats]
theorem after_1 (c : Dev nD) (t : Fin cfg0.N) : (dats m 0 c).after 1 t = iblk m c 1 t := by dsimp only [dats]
theorem after_2 (c : Dev nD) (t : Fin cfg0.N) :
    (dats m 0 c).after 2 t
      = win0_2.fill (α := Elt Ideal .f32) (grid0.coords t) (fun _ => zeroWord) ((win0_2.blk t).view.read (Elt Ideal) (result m c)) := by
  dsimp only [dats]

/-- The table's buffer was just fetched: its block on the moved part, anything (`d`) past it. -/
theorem before_0 (c : Dev nD) (t : Fin cfg0.N) (d) :
    (dats m 0 c).before 0 t d = win0_0.fill (grid0.coords t) d (iblk m c 0 t) :=
  ((dats m 0 c).before_fetched 0 t (fetch0_0 t) d).trans (by
    unfold Dat.fetched Dat.blockOf iblk; rw [A_eq m c 0]; try rfl)

/-- The head sums' buffer holds the column at every point, fetched there or not. -/
theorem before_1 (c : Dev nD) (t : Fin cfg0.N) (d) : (dats m 0 c).before 1 t d = iblk m c 1 t :=
  before0_1_of m (dats m 0 c) (A_eq m c 1) (after_1 m c) t d

/-- The result's buffer holds anything: it is written back at every point. -/
theorem before_2 (c : Dev nD) (t : Fin cfg0.N) (d) : (dats m 0 c).before 2 t d = d :=
  (dats m 0 c).before_out_reset 2 rfl t (by
    by_cases h0 : t.val = 0
    · exact .inl h0
    · exact .inr ⟨h0, flush0_2 _⟩) d

/-! ## What the body's tile holds on the part written back -/

/-- On the part of the tile the write-back moves, the body's tile is `result` read through the point's block, whatever
    the table's buffer holds past its own moved part. -/
theorem point_value (c : Dev nD) (t : Fin cfg0.N) (d0 : S2048x512.Idx → Elt Ideal .f32) :
    win0_2.cut (grid0.coords t) (k0_pay1 (F := Ideal) (win0_0.fill (grid0.coords t) d0 (iblk m c 0 t)) (iblk m c 1 t))
      = (win0_2.blk t).view.read (Elt Ideal) (result m c) := by
  obtain ⟨-, -, -, -, -, -, hx, hx1, hy0, hmin⟩ := Blocks.idx_facts t
  funext y
  have hyb : (y 0).val < win0_2.xsize (grid0.coords t) 0 := (y 0).isLt
  have hyj : (y 1).val < win0_2.xsize (grid0.coords t) 1 := (y 1).isLt
  have hb : (y 0).val < 256 := by omega
  have hj : (y 1).val < 2048 := Nat.lt_of_lt_of_le hyj (win0_2.xsize_le (grid0.coords t) 1)
  have he : t.val * 2048 + (y 1).val < 43234 := by omega
  have exi : win0_2.xinj (grid0.coords t) y = ix2 (⟨(y 0).val, hb⟩ : Fin 256) (⟨(y 1).val, hj⟩ : Fin 2048) :=
    funext fun a => Fin.ext (by match a with | ⟨0, _⟩ => rfl | ⟨1, _⟩ => rfl)
  rw [View.read_apply, Blocks.out_emb t y ⟨(y 0).val, hb⟩ ⟨t.val * 2048 + (y 1).val, he⟩ rfl rfl]
  show k0_pay1 (F := Ideal) _ _ (win0_2.xinj (grid0.coords t) y) = Cert.Score.score (headVec m c) (entArr m c) _
  rw [exi, Payload.pay_apply, Cert.Score.score_apply, headVec_apply, Blocks.head_block m c t]
  unfold Cert.Score.rowSum
  refine congrArg (fun s => Ideal.div (Ideal.ofBits .f32 0x3F800000#32) (headCol m c (ix2 (⟨(y 0).val, hb⟩ : Fin 256) (0 : Fin 1)) - s))
    (Finset.sum_congr rfl fun k _ => ?_)
  -- row `y 1` of the buffer is on the table's moved part: there the buffer holds the table's block
  have hz0 : (y 1).val < win0_0.xsize (grid0.coords t) 0 := by omega
  have hz1 : k.val < win0_0.xsize (grid0.coords t) 1 := by have := k.isLt; omega
  have ez : (ix2 (⟨(y 1).val, hj⟩ : Fin 2048) k : S2048x512.Idx)
      = win0_0.xinj (grid0.coords t) (fun a => match a with | ⟨0, _⟩ => ⟨(y 1).val, hz0⟩ | ⟨1, _⟩ => ⟨k.val, hz1⟩) :=
    funext fun a => Fin.ext (by match a with | ⟨0, _⟩ => rfl | ⟨1, _⟩ => rfl)
  rw [ez, Window.fill_xinj]
  exact Blocks.ent_block m c t _ ⟨t.val * 2048 + (y 1).val, he⟩ k rfl rfl

/-! ## The body obligation -/

/-- The body at point `t`: handed the three current buffers at what they then hold, it hands back the table's buffer
    unchanged, the head sums' unchanged, and the result's at its tile, which on the moved part is what the data
    names. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare
                (win0_0.fill (grid0.coords t) d (win0_0.cut (grid0.coords t) ((dats m 0 c).after 0 t))))
            ∗ owns (c : Thread nD τ) (st0_1 t) fullShare ((dats m 0 c).after 1 t)
            ∗ (∃ d, owns (c : Thread nD τ) (st0_2 t) fullShare
                (win0_2.fill (grid0.coords t) d (win0_2.cut (grid0.coords t) ((dats m 0 c).after 2 t)))))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (Cert.KernelIdeal.Body.sound_kernel (F := Ideal) c Set.univ (grid0.coords t) _ _ _ _ _ _
    (win0_0.fill (grid0.coords t) d0 (iblk m c 0 t)) (iblk m c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    rw [after_0, Window.cut_fill]
    iexact H0
  isplitl [H1]
  · rw [after_1]; iexact H1
  · iexists (k0_pay1 (F := Ideal) (win0_0.fill (grid0.coords t) d0 (iblk m c 0 t)) (iblk m c 1 t))
    rw [after_2, Window.cut_fill, ← point_value m c t d0, Window.fill_cut]
    iexact H2

/-- The library's body obligation, in the form the loop uses. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, every array of the pipeline at what the library computes from the
    proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the arguments end at their launch contents. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-! ## The result array after the run -/

/-- What each write-back writes is `result` read through the point's block. -/
theorem flushed_eq (c : Dev nD) (t : Fin cfg0.N) (hf : (cfg0.win 2).flush t = true) :
    (dats m 0 c).flushed 2 t = ((cfg0.win 2).blk t).view.read (Elt Ideal) (result m c) := by
  show win0_2.cut (grid0.coords t) ((dats m 0 c).after 2 t) = _
  rw [after_2, Window.cut_fill]

/-- Column `e` of the result is in the block of point `e / 2048`: the 22 blocks cover the array. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 256 := (i 0).isLt
  have hi1 : (i 1 : Nat) < 43234 := (i 1).isLt
  have hN : cfg0.N = 22 := N_0
  obtain ⟨q, hq⟩ : ∃ q : Nat, q = (i 1 : Nat) / 2048 := ⟨_, rfl⟩
  have ht : q < cfg0.N := by rw [hN]; omega
  refine ⟨⟨q, ht⟩, flush0_2 _, ?_⟩
  obtain ⟨-, -, -, -, h20, h21, -, -, hy0, hmin⟩ := Blocks.idx_facts ⟨q, ht⟩
  have h21' : win0_2.index ⟨q, ht⟩ 1 = q := h21
  have hmin' : q * 2048 + win0_2.xsize (grid0.coords ⟨q, ht⟩) 1 = min 43234 ((q + 1) * 2048) := hmin
  show i ∈ ((View.whole main_v32).slice (win0_2.rect ⟨q, ht⟩)).set
  rw [View.set_slice_whole, Rect.mem_set_unit]
  intro a
  match a with
  | ⟨0, _⟩ =>
    show win0_2.index ⟨q, ht⟩ 0 * 256 ≤ (i 0 : Nat)
      ∧ (i 0 : Nat) < win0_2.index ⟨q, ht⟩ 0 * 256 + win0_2.xsize (grid0.coords ⟨q, ht⟩) 0
    rw [h20, hy0]; omega
  | ⟨1, _⟩ =>
    show win0_2.index ⟨q, ht⟩ 1 * 2048 ≤ (i 1 : Nat)
      ∧ (i 1 : Nat) < win0_2.index ⟨q, ht⟩ 1 * 2048 + win0_2.xsize (grid0.coords ⟨q, ht⟩) 1
    rw [h21']
    omega

/-- The result array ends holding `result`. -/
theorem final_result (c : Dev nD) : (dats m 0 c).arrAt 2 cfg0.N = result m c :=
  (dats m 0 c).arrAt_eq_of_cover 2 (result m c) (flushed_eq m c) (cover c)

/-- The run, read: the result array at `result`, the five arguments unchanged. -/
theorem run : θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (final_result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats m 0 c).arrAt_in 0 rfl _).trans ((A_eq m c 0).trans (V_main_arg4 m c)))⟩) (run_main m ρ)

end Cert.KernelIdeal.Run

end
-- ==== Proof.Reference.lean ====
/-
  The reference's result is the score.

  Read one operation at a time, the reference divides the word of `1.0` by the difference of two broadcasts: the
  head sums, a vector of 256 spread along the entities, and the entities' row sums, a vector of 43234 spread along
  the heads. An entity's row sum is taken by halves: the first 256 columns and the last 256 are added entry by
  entry and the 256 results summed from zero. By the law of the two halves that is the sum of all 512 entries of
  the row, so the result at `(b, e)` is one over head sum `b` less row `e`'s sum. The head sums themselves — the
  matrix product, the gathered rows, the rotation — are the same operations in both programs and are never opened.
-/
import proofs.«172840_j28140625723971_1_alg».proof.Proof.Gen.ReferenceIdeal.Read
import proofs.«172840_j28140625723971_1_alg».proof.Proof.Score

noncomputable section

namespace Cert.ReferenceIdeal.RefValue

open Cert.ReferenceIdeal Cert.ReferenceIdeal.Read Idealize.ShloMosaic Idealize.ShloMosaic.ValueIdx

/-- The reference's last stage, index by index, is the score of its head sums and the entity table. -/
theorem result_is_score (x0 : (⟨S256x768, .f32⟩ : BufTy).Contents (Elt Ideal)) (x1 : (⟨S256, .i32⟩ : BufTy).Contents (Elt Ideal))
    (x2 : (⟨S256x768, .f32⟩ : BufTy).Contents (Elt Ideal)) (x3 : (⟨S256, .f32⟩ : BufTy).Contents (Elt Ideal))
    (x4 : (⟨S43234x512, .f32⟩ : BufTy).Contents (Elt Ideal)) :
    val_main_v41 (F := Ideal) x0 x1 x2 x3 x4 = Cert.Score.score (val_main_v30 (F := Ideal) x0 x1 x2 x3 x4) x4 := by
  funext i
  obtain ⟨b, e, rfl⟩ : ∃ (b : Fin 256) (e : Fin 43234), i = ix2 b e := ⟨i 0, i 1, eq_ix2 i⟩
  -- the head sum read through its two broadcasts is head sum `b`
  have hhead : idx_main_v35 (idx_main_v37 (ix2 b e)) = ix1 b :=
    funext fun a => Fin.ext (by match a with | ⟨0, _⟩ => rfl)
  -- entry `k` of the first half of row `e`, and of the second
  have hlo : ∀ k : Fin 256, idx_main_v31 (idx_main_v34 (idx_main_v36 (idx_main_v38 (ix2 b e))) k)
      = ix2 e ⟨k.val, Nat.lt_of_lt_of_le k.isLt (by decide)⟩ :=
    fun k => funext fun a => Fin.ext (by match a with | ⟨0, _⟩ => rfl | ⟨1, _⟩ => rfl)
  have hhi : ∀ k : Fin 256, idx_main_v32 (idx_main_v34 (idx_main_v36 (idx_main_v38 (ix2 b e))) k)
      = ix2 e ⟨256 + k.val, by have := k.isLt; omega⟩ :=
    fun k => funext fun a => Fin.ext (by match a with | ⟨0, _⟩ => rfl | ⟨1, _⟩ => rfl)
  rw [Cert.Score.score_apply_halves, val_main_v41_apply, val_main_v40_apply, val_main_cst_4_apply, val_main_v39_apply,
    val_main_v37_apply, val_main_v35_apply, val_main_v38_apply, val_main_v36_apply, val_main_v34_apply, val_main_cst_3_apply]
  simp only [val_main_v33_apply, val_main_v31_apply, val_main_v32_apply, hhead, hlo, hhi, Ideal.hostDivf_def,
    Ideal.subf_def, Ideal.addf_def, Ideal.ofBits_def, Ideal.ofBits_zero_f32, zero_add]

end Cert.ReferenceIdeal.RefValue

end
-- ==== Proof.lean ====
/-
  The score kernel against its reference, over the extended reals.

  Both programs compute, from the question embeddings, a weight matrix, a bias, 256 head indices and a table of
  43234 entity rows of 512 entries, a 256 by 43234 array of scores. Both first compute, by the same host
  operations in the same order, a vector `hs` of 256 head sums (a matrix product passed through cosine and sine, a
  gather of the heads' rows, absolute values, a sum along each row). Then the score at head `b` and entity `e` is one
  over `hs b` less the sum of row `e` of the table. The reference takes a row's sum by halves — the first 256 entries
  and the last 256 added termwise, the 256 results summed; the kernel streams the table through the chip in tiles
  of 2048 rows and sums each row along all its 512 lanes. A sum of 512 terms is the sum of its two halves added
  termwise because addition of extended reals is commutative and associative: no finiteness is needed, and the
  precondition is never opened. The last tile overhangs the table by 1822 rows, whose contents nothing names; a
  score depends on the table through one row only, the tile's scores from the overhanging rows fall on the 1822
  columns of the result's last tile that are never written back, so they reach no result.

  The five claims: the word-level kernel runs and leaves its arguments unchanged (proved with nothing said about what
  it computes: at the word level a lane sum is known only as a function of the whole tile); the idealized kernel
  runs, leaves its arguments unchanged and ends with the result array at the score of its head sums and table; the
  reference runs and ends at the score of its head sums and table; the idealization rewrote nothing; and the two
  head-sum vectors are one term of the arguments, so the results are equal.
-/
import proofs.«172840_j28140625723971_1_alg».proof.Defs
import proofs.«172840_j28140625723971_1_alg».proof.Proof.Gen.Kernel
import proofs.«172840_j28140625723971_1_alg».proof.Proof.Gen.KernelIdeal
import proofs.«172840_j28140625723971_1_alg».proof.Proof.Gen.ReferenceIdeal
import proofs.«172840_j28140625723971_1_alg».proof.Proof.Gen.Pre_finite_inputs
import proofs.«172840_j28140625723971_1_alg».proof.Proof.Gen.ReferenceIdeal.Run
import proofs.«172840_j28140625723971_1_alg».proof.Proof.Gen.ReferenceIdeal.Read
import proofs.«172840_j28140625723971_1_alg».proof.Proof.FrameBits
import proofs.«172840_j28140625723971_1_alg».proof.Proof.RunIdeal
import proofs.«172840_j28140625723971_1_alg».proof.Proof.Reference
import proofs.«172840_j28140625723971_1_alg».proof.Proof.LibColumn
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Idealize.ShloMosaic.StableHlo

/-! ## The two programs' head sums are one term of the arguments -/

section HeadSums

variable (m : (ℓ : Loc Cert.KernelIdeal.nD Cert.KernelIdeal.τ Cert.KernelIdeal.sig) → Buf (Elt Ideal) ℓ)

set_option maxHeartbeats 2000000 in
/-- The column of head sums the kernel's region finds is the reference's vector of head sums, of the same
    arguments, stood up as a column: the host operations before the region are the reference's first operations. -/
theorem head_column (c : Dev Cert.KernelIdeal.nD) :
    (Cert.KernelIdeal.Gen.V m c Cert.KernelIdeal.main_v31 : Cert.KernelIdeal.S256x1.Idx → EReal)
      = shapeCast Cert.KernelIdeal.S256x1
          (Cert.ReferenceIdeal.Read.val_main_v30 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
          Cert.KernelIdeal.Gen.shapeCasts_S256_S256x1 := by
  dsimp only [Cert.KernelIdeal.Gen.V]
  simp only [Cert.KernelIdeal.Gen.hostOps0, Cert.KernelIdeal.Gen.hostOps0_1, List.flatten_cons, List.flatten_nil,
    List.append_nil, List.cons_append, List.nil_append]
  after_results_simp <;> rfl

/-- So the kernel's head sums are the reference's. -/
theorem head_sums_agree (c : Dev Cert.KernelIdeal.nD) :
    Cert.KernelIdeal.Run.headVec m c
      = Cert.ReferenceIdeal.Read.val_main_v30 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext j
  obtain ⟨b, rfl⟩ : ∃ b : Fin 256, j = ix1 b := ⟨j 0, eq_ix1 j⟩
  rw [Cert.KernelIdeal.Run.headVec_apply]
  show (Cert.KernelIdeal.Gen.V m c Cert.KernelIdeal.main_v31 : Cert.KernelIdeal.S256x1.Idx → EReal) (ix2 b (0 : Fin 1)) = _
  rw [head_column m c]
  exact Cert.LibColumn.shapeCast_a_a1_apply _ Cert.KernelIdeal.Gen.shapeCasts_S256_S256x1 b (0 : Fin 1)

end HeadSums

/-! ## The claims -/

/-- The word-level kernel runs and its arguments end unchanged. -/
theorem frame_kernel : Cert.frame_Kernel := fun m ρ _ => Cert.Kernel.FrameRun.frame m ρ

/-- The idealized kernel runs and its arguments end unchanged. -/
theorem frame_kernelIdeal : Cert.frame_KernelIdeal := fun m ρ _ => Cert.KernelIdeal.Run.frame m ρ

/-- The reference runs and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the score of the same head sums and the
    same table. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_is_score,
    (hagree c).1, (hagree c).2.1, (hagree c).2.2.1, (hagree c).2.2.2.1, (hagree c).2.2.2.2]
  show _ = Cert.Score.score (Cert.KernelIdeal.Run.headVec m c) (Cert.KernelIdeal.Run.entArr m c)
  rw [head_sums_agree m c]
  exact congrArg (Cert.Score.score _) (Cert.KernelIdeal.Gen.V_main_arg4 m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
